-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x64 : Shape := ⟨3, ![256, 1024, 64]⟩
abbrev S1024x64 : Shape := ⟨2, ![1024, 64]⟩
abbrev S_ : Shape := ⟨0, ![]⟩

class Facts : Prop where
  bcast_S_S256x1024x64 : S_.BroadcastsInDim S256x1024x64 (![] : Fin 0 → Fin S256x1024x64.rank)
  reducesTo_S256x1024x64_S_d0_1_2 : S256x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S256x1024x64 .f32) (main_arg1 : FVec F S1024x64 .f32) : IVec S_ 1 :=
  let main_v0 : FVec F S256x1024x64 .f32 := Host.absf main_arg0
  let main_cst : FVec F S_ .f32 := constant S_ .f32 0x7F800000#32
  let main_v1 : FVec F S256x1024x64 .f32 := broadcastInDim S256x1024x64 ![] bcast_S_S256x1024x64 main_cst
  let main_v2 : IVec S256x1024x64 1 := cmpf .olt main_v0 main_v1
  let main_c : IVec S_ 1 := constantI S_ 1 1#1
  let main_v3 : IVec S_ 1 := (fun x v => Host.reduce IntOp.andi x v reducesTo_S256x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S256x1024x64 : Shape := ⟨3, ![256, 1024, 64]⟩
abbrev S1024x64 : Shape := ⟨2, ![1024, 64]⟩
abbrev S256x1 : Shape := ⟨2, ![256, 1]⟩
abbrev S128x128x64 : Shape := ⟨3, ![128, 128, 64]⟩
abbrev S128x1 : Shape := ⟨2, ![128, 1]⟩
abbrev S16384x64 : Shape := ⟨2, ![16384, 64]⟩
abbrev S16384x128 : Shape := ⟨2, ![16384, 128]⟩
abbrev S128x64 : Shape := ⟨2, ![128, 64]⟩
abbrev S16384 : Shape := ⟨1, ![16384]⟩
abbrev S128x128 : Shape := ⟨2, ![128, 128]⟩
abbrev S128 : Shape := ⟨1, ![128]⟩
abbrev S256 : Shape := ⟨1, ![256]⟩

abbrev nBuf : Space → Nat
  | .hbm => 4
  | .vmem => 6
  | .smem => 0
  | _ => 0

abbrev bufTy : (tb : Table) → Fin (tcTables nBuf tb) → BufTy
  | .hbm, ⟨0, _⟩ => ⟨S256x1024x64, .f32⟩
  | .hbm, ⟨1, _⟩ => ⟨S1024x64, .f32⟩
  | .hbm, ⟨2, _⟩ => ⟨S256x1, .f32⟩
  | .hbm, ⟨3, _⟩ => ⟨S256, .f32⟩
  | .local _ .vmem, ⟨0, _⟩ => ⟨S128x128x64, .f32⟩
  | .local _ .vmem, ⟨1, _⟩ => ⟨S128x128x64, .f32⟩
  | .local _ .vmem, ⟨2, _⟩ => ⟨S1024x64, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 : BitVec 32 :=
  let c0_i32_3 : BitVec 32 := 0#32
  let c128_i32 : BitVec 32 := 128#32
  let v6 : BitVec 32 := Scalar.muli c0_i32_3 c128_i32
  v6
def k0_off1 (c0_i32_3 : BitVec 32) : Fin 2 → Nat :=
  let c128_i32 : BitVec 32 := 128#32
  let v6 : BitVec 32 := Scalar.muli c0_i32_3 c128_i32
  let v7 : BitVec 32 := v6
  let v8 : Index := Scalar.indexCast v7
  let c0_4 : Index := 0#32
  ![v8.toNat, 0]
def k0_mult2 : BitVec 32 :=
  let c1_i32 : BitVec 32 := 1#32
  let c128_i32_6 : BitVec 32 := 128#32
  let v12 : BitVec 32 := Scalar.muli c1_i32 c128_i32_6
  v12
def k0_mult3 : BitVec 32 :=
  let c2_i32 : BitVec 32 := 2#32
  let c128_i32_9 : BitVec 32 := 128#32
  let v18 : BitVec 32 := Scalar.muli c2_i32 c128_i32_9
  v18
def k0_mult4 : BitVec 32 :=
  let c3_i32 : BitVec 32 := 3#32
  let c128_i32_12 : BitVec 32 := 128#32
  let v24 : BitVec 32 := Scalar.muli c3_i32 c128_i32_12
  v24
def k0_mult5 : BitVec 32 :=
  let c4_i32 : BitVec 32 := 4#32
  let c128_i32_15 : BitVec 32 := 128#32
  let v30 : BitVec 32 := Scalar.muli c4_i32 c128_i32_15
  v30
def k0_mult6 : BitVec 32 :=
  let c5_i32 : BitVec 32 := 5#32
  let c128_i32_18 : BitVec 32 := 128#32
  let v36 : BitVec 32 := Scalar.muli c5_i32 c128_i32_18
  v36
def k0_mult7 : BitVec 32 :=
  let c6_i32 : BitVec 32 := 6#32
  let c128_i32_21 : BitVec 32 := 128#32
  let v42 : BitVec 32 := Scalar.muli c6_i32 c128_i32_21
  v42
def k0_mult8 : BitVec 32 :=
  let c7_i32 : BitVec 32 := 7#32
  let c128_i32_24 : BitVec 32 := 128#32
  let v48 : BitVec 32 := Scalar.muli c7_i32 c128_i32_24
  v48
def k0_cond2 (i : grid0.Coords) : BitVec 1 :=
  let arg1 : BitVec 32 := BitVec.ofNat 32 (i 1).val
  let c7_i32_33 : BitVec 32 := 7#32
  let v63 : BitVec 1 := Scalar.cmpi .eq arg1 c7_i32_33
  let v64 : BitVec 32 := Scalar.extui v63
  let c0_i32_34 : BitVec 32 := 0#32
  let v65 : BitVec 1 := Scalar.cmpi .ne v64 c0_i32_34
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128x64_S128x128x64_0_0_0 : ∀ a, (![0, 0, 0] : Fin 3 → Nat) a + S128x128x64.size a ≤ S128x128x64.size a
  h_S128x128x64 : 0 < S128x128x64.numel
  shapeCasts_S128x128x64_S16384x64 : S128x128x64.ShapeCasts S16384x64
  h_S128x64 : 0 < S128x64.numel
  reduces_S16384x128_S16384 : S16384x128.Reduces [1] S16384
  shapeCasts_S16384_S128x128 : S16384.ShapeCasts S128x128
  reduces_S128x128_S128 : S128x128.Reduces [1] S128
  shapeCasts_S128_S128x1 : S128.ShapeCasts S128x1
  shapeCasts_S256x1_S256 : S256x1.ShapeCasts S256
  dot_S16384x64_S128x64_S16384x128_1_1_0_0_n_n_wf : DotDims.WF S16384x64 S128x64 S16384x128 [1] [1] [0] [0] [] []
  hrank0 : 0 < grid0.rank
  k0_mult1_dvd : 128 ∣ k0_mult1.toNat
  k0_off1_inb : ∀ (r : Fin 8), ∀ a, (k0_off1 (BitVec.ofNat 32 r.val)) a + S128x64.size a ≤ S1024x64.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S256x1024x64.size a
  hwx0_0 : ∀ i : grid0.Coords, EltTy.bits .f32 = 32 ∨ (Rect.block (s := S256x1024x64) S128x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .f32 = 32 ∨ (Rect.block (s := S256x1) S128x1.size (cc0_transform_2 i) (hinb0_2 i)).WholeWords (EltTy.packing .f32)

variable [Facts₀]

def dot_S16384x64_S128x64_S16384x128_1_1_0_0_n_n : DotDims S16384x64 S128x64 S16384x128 where
  lhsContracting := [1]
  rhsContracting := [1]
  lhsNonContracting := [0]
  rhsNonContracting := [0]
  lhsBatch := []
  rhsBatch := []
  wf := dot_S16384x64_S128x64_S16384x128_1_1_0_0_n_n_wf

abbrev win0_0 : Pipeline.Window sig grid0 :=
  Pipeline.Window.ofSpec (Memref.whole main_arg0) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x1024x64 : Shape := ⟨3, ![256, 1024, 64]⟩
abbrev S1024x64 : Shape := ⟨2, ![1024, 64]⟩
abbrev S256x1024x1024 : Shape := ⟨3, ![256, 1024, 1024]⟩
abbrev S_ : Shape := ⟨0, ![]⟩
abbrev S256x1024 : Shape := ⟨2, ![256, 1024]⟩
abbrev S256 : Shape := ⟨1, ![256]⟩

abbrev nBuf : Space → Nat
  | .hbm => 7
  | .vmem => 0
  | .smem => 0
  | _ => 0

abbrev bufTy : (tb : Table) → Fin (tcTables nBuf tb) → BufTy
  | .hbm, ⟨0, _⟩ => ⟨S256x1024x64, .f32⟩
  | .hbm, ⟨1, _⟩ => ⟨S1024x64, .f32⟩
  | .hbm, ⟨2, _⟩ => ⟨S256x1024x1024, .f32⟩
  | .hbm, ⟨3, _⟩ => ⟨S_, .f32⟩
  | .hbm, ⟨4, _⟩ => ⟨S256x1024, .f32⟩
  | .hbm, ⟨5, _⟩ => ⟨S_, .f32⟩
  | .hbm, ⟨6, _⟩ => ⟨S256, .f32⟩
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S256x1024x1024_S256x1024_d2 : S256x1024x1024.ReducesTo [2] S256x1024
  h_S_ : 0 < S_.numel
  reducesTo_S256x1024_S256_d1 : S256x1024.ReducesTo [1] S256
  dot_S256x1024x64_S1024x64_S256x1024x1024_2_1_01_0_n_n_wf : DotDims.WF S256x1024x64 S1024x64 S256x1024x1024 [2] [1] [0, 1] [0] [] []

variable [Facts₀]

def dot_S256x1024x64_S1024x64_S256x1024x1024_2_1_01_0_n_n : DotDims S256x1024x64 S1024x64 S256x1024x1024 where
  lhsContracting := [2]
  rhsContracting := [1]
  lhsNonContracting := [0, 1]
  rhsNonContracting := [0]
  lhsBatch := []
  rhsBatch := []
  wf := dot_S256x1024x64_S1024x64_S256x1024x1024_2_1_01_0_n_n_wf

class Facts : Prop extends Facts₀ where

variable [Facts]
-- ==== Proof.Spec.lean ====
/-
  What both programs compute, as one function over the extended reals, and the regrouping laws a tiled
  evaluation of it rests on.

  For block features `Q` of shape [256, 1024, 64] and image features `K` of shape [1024, 64]:

    score Q K l i j = Σ_c Q[l, i, c] · K[j, c]        the inner product of block token i of splat l with image token j
    rowMax Q K l i  = the maximum over the 1024 image tokens j of score Q K l i j, folded from −∞
    total Q K l     = 0 + Σ over the 1024 block tokens i of rowMax Q K l i

  The two starting values are kept as the words the programs spell them with (0xFF800000 and 0x00000000); no law
  below needs to know what they denote. The maximum may be taken 128 lanes at a time, eight image-token chunks
  nested inside each lane, because `max` is idempotent, commutative and associative: both sides have the same upper
  bounds. The sum over 1024 block tokens is the sum over eight tiles of 128, and adding eight tile sums one after
  the other onto a starting value is adding their sum, because `+` on the extended reals is commutative and
  associative (the infinities included). Nothing here needs an entry to be finite.

  One index map serves both regroupings: position `b` of tile `a` is token 128·a + b.
-/
import Idealize.ShloMosaic.PureOps.Ideal
import Idealize.ShloMosaic.PureOps.Ideal.Laws
import Idealize.ShloMosaic.Lib.ValueIdx

noncomputable section

namespace Cert.SplatMaxSum

open Idealize.ShloMosaic Idealize.ShloMosaic.ValueIdx

/-- The block features' shape, the image features' shape, the result's shape. -/
abbrev SQ : Shape := ⟨3, ![256, 1024, 64]⟩
abbrev SK : Shape := ⟨2, ![1024, 64]⟩
abbrev SL : Shape := ⟨1, ![256]⟩

/-- The word both programs start a maximum from (−∞), and the word both start a sum from (0). -/
abbrev maxStart : EReal := Ideal.ofBits .f32 0xFF800000#32
abbrev sumStart : EReal := Ideal.ofBits .f32 0x00000000#32

/-- Token 128·a + b: position `b` of tile `a` (an image-token chunk and its lane; a block-token tile and its row). -/
def tile (a : Fin 8) (b : Fin 128) : Fin 1024 := ⟨128 * a.val + b.val, by have := a.isLt; have := b.isLt; omega⟩

theorem tile_val (a : Fin 8) (b : Fin 128) : (tile a b).val = 128 * a.val + b.val := rfl

/-- Every token is a position of a tile. -/
theorem exists_tile (j : Fin 1024) : ∃ (a : Fin 8) (b : Fin 128), tile a b = j := by
  have hj := j.isLt
  exact ⟨⟨j.val / 128, by omega⟩, ⟨j.val % 128, by omega⟩, Fin.ext (by simp only [tile_val]; omega)⟩

/-- Tiles and positions are the tokens, one to one. -/
def tileEquiv : Fin 8 × Fin 128 ≃ Fin 1024 where
  toFun p := tile p.1 p.2
  invFun j := (⟨j.val / 128, by have := j.isLt; omega⟩, ⟨j.val % 128, by omega⟩)
  left_inv p := by
    have h1 := p.1.isLt; have h2 := p.2.isLt
    refine Prod.ext (Fin.ext ?_) (Fin.ext ?_) <;> simp only [tile_val] <;> omega
  right_inv j := by
    have hj := j.isLt
    exact Fin.ext (by simp only [tile_val]; omega)

/-- A sum over the 1024 tokens is the sum over the eight tiles of the sums over their 128 positions. -/
theorem sum_tiles {M : Type*} [AddCommMonoid M] (g : Fin 1024 → M) :
    ∑ i : Fin 1024, g i = ∑ a : Fin 8, ∑ b : Fin 128, g (tile a b) := by
  rw [← tileEquiv.sum_comp g, Fintype.sum_prod_type]
  rfl

/-- Eight chunks' values at one lane, folded by `max` onto a starting value in chunk order. -/
def nest8 (s : EReal) (f : Fin 1024 → EReal) (b : Fin 128) : EReal :=
  max (max (max (max (max (max (max (max s (f (tile 0 b))) (f (tile 1 b))) (f (tile 2 b))) (f (tile 3 b)))
    (f (tile 4 b))) (f (tile 5 b))) (f (tile 6 b))) (f (tile 7 b))

theorem nest8_le_iff (s : EReal) (f : Fin 1024 → EReal) (b : Fin 128) (u : EReal) :
    nest8 s f b ≤ u ↔ s ≤ u ∧ ∀ a : Fin 8, f (tile a b) ≤ u := by
  unfold nest8
  simp only [max_le_iff]
  constructor
  · rintro ⟨⟨⟨⟨⟨⟨⟨⟨hs, h0⟩, h1⟩, h2⟩, h3⟩, h4⟩, h5⟩, h6⟩, h7⟩
    refine ⟨hs, fun a => ?_⟩
    fin_cases a <;> assumption
  · rintro ⟨hs, h⟩
    exact ⟨⟨⟨⟨⟨⟨⟨⟨hs, h 0⟩, h 1⟩, h 2⟩, h 3⟩, h 4⟩, h 5⟩, h 6⟩, h 7⟩

/-- The maximum over 1024 tokens, taken lane by lane with the eight chunks nested inside each lane: the same
    value, whatever the starting value, since both sides have the same upper bounds. -/
theorem fold_max_lanes (s : EReal) (f : Fin 1024 → EReal) :
    (Finset.univ : Finset (Fin 128)).fold max s (nest8 s f) = (Finset.univ : Finset (Fin 1024)).fold max s f := by
  refine eq_of_forall_ge_iff fun u => ?_
  rw [Finset.fold_max_le, Finset.fold_max_le]
  simp only [Finset.mem_univ, forall_true_left, nest8_le_iff]
  constructor
  · rintro ⟨hs, h⟩
    refine ⟨hs, fun j => ?_⟩
    obtain ⟨a, b, rfl⟩ := exists_tile j
    exact (h b).2 a
  · rintro ⟨hs, h⟩
    exact ⟨hs, fun b => ⟨hs, fun a => h (tile a b)⟩⟩

/-- Eight values added one after the other onto a starting value: the starting value plus their sum. -/
theorem chain8 (z : EReal) (p : Fin 8 → EReal) :
    z + p 0 + p 1 + p 2 + p 3 + p 4 + p 5 + p 6 + p 7 = z + ∑ a : Fin 8, p a := by
  rw [Fin.sum_univ_eight]
  simp only [add_assoc]

/-! ## The function -/

/-- The inner product of block token `i` of splat `l` with image token `j`. -/
def score (Q : SQ.Idx → EReal) (K : SK.Idx → EReal) (l : Fin 256) (i j : Fin 1024) : EReal :=
  ∑ c : Fin 64, Q (ix3 l i c) * K (ix2 j c)

/-- Block token `i`'s best score over the image tokens. -/
def rowMax (Q : SQ.Idx → EReal) (K : SK.Idx → EReal) (l : Fin 256) (i : Fin 1024) : EReal :=
  (Finset.univ : Finset (Fin 1024)).fold max maxStart (score Q K l i)

/-- Splat `l`'s total of its block tokens' best scores. -/
def total (Q : SQ.Idx → EReal) (K : SK.Idx → EReal) : SL.Idx → EReal :=
  fun o => sumStart + ∑ i : Fin 1024, rowMax Q K (o 0) i

/-- One tile's share of a splat's total: its 128 block tokens' best scores, each taken lane by lane. -/
def tileSum (Q : SQ.Idx → EReal) (K : SK.Idx → EReal) (l : Fin 256) (a : Fin 8) : EReal :=
  ∑ b : Fin 128, (Finset.univ : Finset (Fin 128)).fold max maxStart (nest8 maxStart (score Q K l (tile a b)))

/-- The total as a tiled evaluation reaches it: the eight tile shares added in order onto the starting value. -/
theorem total_tiled (Q : SQ.Idx → EReal) (K : SK.Idx → EReal) (o : SL.Idx) :
    sumStart + tileSum Q K (o 0) 0 + tileSum Q K (o 0) 1 + tileSum Q K (o 0) 2 + tileSum Q K (o 0) 3
      + tileSum Q K (o 0) 4 + tileSum Q K (o 0) 5 + tileSum Q K (o 0) 6 + tileSum Q K (o 0) 7 = total Q K o := by
  rw [chain8 sumStart (tileSum Q K (o 0))]
  unfold total tileSum rowMax
  rw [sum_tiles]
  simp only [fold_max_lanes]

end Cert.SplatMaxSum

end
-- ==== Proof.RefTotal.lean ====
/-
  The reference, read: its result is `total` of its two arguments.

  The reference forms every score at once (one `dot_general` contracting the 64 features: entry (l, i, j) is
  `score l i j`), takes each row's maximum over the image-token axis from −∞ (entry (l, i) is `rowMax l i`: a
  one-axis reduction with a commutative, associative body is the fold over that axis's coordinates), and sums each
  splat's row over the block-token axis from 0 (entry l is `total l`). Each stage is read at an index; the index
  maps the stages go through are the coordinates themselves.
-/
import proofs.«420214_j2190433320968_4_alg».proof.Proof.Gen.ReferenceIdeal.Read
import proofs.«420214_j2190433320968_4_alg».proof.Proof.Spec
import Idealize.ShloMosaic.PureOps.Reduce
import Idealize.ShloMosaic.PureOps.Ideal.Laws

noncomputable section

namespace Cert.SplatMaxSum.Reference

open Cert.ReferenceIdeal Cert.ReferenceIdeal.Gen Cert.ReferenceIdeal.Read
open Idealize.ShloMosaic Idealize.ShloMosaic.ValueIdx Cert.SplatMaxSum

/-- The score array at (l, i, j) is the inner product of block token i of splat l with image token j. -/
theorem scores_apply (x0 : SQ.Idx → EReal) (x1 : SK.Idx → EReal) (l : Fin 256) (i j : Fin 1024) :
    val_main_v0 (F := Ideal) x0 x1 (ix3 l i j) = score x0 x1 l i j := by
  rw [val_main_v0_apply]
  unfold score
  refine Finset.sum_congr rfl fun c _ => ?_
  have el : lidx_main_v0 (ix3 l i j) c = ix3 l i c :=
    funext fun a => by match a with | ⟨0, _⟩ => rfl | ⟨1, _⟩ => rfl | ⟨2, _⟩ => rfl
  have er : ridx_main_v0 (ix3 l i j) c = ix2 j c :=
    funext fun a => by match a with | ⟨0, _⟩ => rfl | ⟨1, _⟩ => rfl
  rw [el, er]

/-- The row-maximum array at (l, i) is block token i's best score: the fold of `max` from the starting word over
    the image-token coordinate. -/
theorem rowMax_apply (x0 : SQ.Idx → EReal) (x1 : SK.Idx → EReal) (l : Fin 256) (i : Fin 1024) :
    val_main_v1 (F := Ideal) x0 x1 (ix2 l i) = rowMax x0 x1 l i := by
  unfold val_main_v1
  rw [Host.reduce_eq_fold_single (FloatOps.maximumf (F := Ideal) (φ := .f32)) _ _
    reducesTo_S256x1024x1024_S256x1024_d2 (by decide) h_S_]
  unfold rowMax
  refine Finset.fold_congr fun (j : Fin 1024) _ => ?_
  have e : (by decide : Shape.Reduces S256x1024x1024 [2] S256x1024).lift (ix2 l i) j = ix3 l i j :=
    funext fun a => Fin.ext (by match a with | ⟨0, _⟩ => rfl | ⟨1, _⟩ => rfl | ⟨2, _⟩ => rfl)
  exact (congrArg (val_main_v0 (F := Ideal) x0 x1) e).trans (scores_apply x0 x1 l i j)

/-- The reference's result is `total`. -/
theorem result_eq_total (x0 : SQ.Idx → EReal) (x1 : SK.Idx → EReal) :
    val_main_v2 (F := Ideal) x0 x1 = total x0 x1 := by
  funext o
  rw [val_main_v2_apply]
  unfold total
  refine congrArg (sumStart + ·) (Finset.sum_congr rfl fun (i : Fin 1024) _ => ?_)
  have e : idx_main_v2 o i = ix2 (o 0) i :=
    funext fun a => by match a with | ⟨0, _⟩ => rfl | ⟨1, _⟩ => rfl
  exact (congrArg (val_main_v1 (F := Ideal) x0 x1) e).trans (rowMax_apply x0 x1 (o 0) i)

end Cert.SplatMaxSum.Reference

end
-- ==== Proof.KernelStep.lean ====
/-
  One grid step of the kernel, as a function, and what each control case leaves behind in terms of it.

  At a grid point the body holds a tile of block features (128 splats × 128 block tokens × 64 features), all the
  image features (1024 × 64), and a running per-splat accumulator (128 × 1) that lives in scratch between points.
  It leaves in the accumulator

      step tile K acc = acc + (for each of the tile's 128 splats, the sum over its 128 block tokens of the best
                               score against the 1024 image tokens),

  the best score taken over eight image-token chunks of 128 rows each, folded lane by lane. The three control cases
  differ only in what the accumulator is when the step starts and in whether the result is also copied to the
  output block:

    the first block-token tile of a splat tile   the accumulator is zero-filled first:   step tile K 0
    a middle tile                                it is what the point before left:       step tile K acc
    the last tile                                likewise, and the output block gets a copy of the result.

  Everything here holds at any float instance: nothing is evaluated, the stores and loads are only read back.
-/
import proofs.«420214_j2190433320968_4_alg».proof.Proof.Gen.KernelIdeal.Frame
import Idealize.ShloMosaic.Lib.Pipeline.Value
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A chunk of 128 image tokens starting at row `o` lies inside the 1024 rows when `o + 128 ≤ 1024`. -/
theorem chunk_inb (o : Nat) (ho : o + 128 ≤ 1024) : ∀ a, (![o, 0] : Fin 2 → Nat) a + (![128, 64] : Fin 2 → Nat) a ≤ S1024x64.size a := by
  intro a; fin_cases a
  · exact ho
  · exact Nat.le_refl 64

/-- Image tokens `o … o + 127`, all 64 features: one chunk of the image features. -/
abbrev chunk (x1 : Vec F S1024x64 .f32) (o : Nat) (ho : o + 128 ≤ 1024) : Vec F S128x64 .f32 :=
  View.ld x1 (Rect.unit ![o, 0] ![128, 64] (chunk_inb o ho))

/-- The accumulator after one grid step: the accumulator before plus, per splat of the tile, the sum over the tile's
    block tokens of the best score over the eight image-token chunks. -/
def step (x0 : Vec F S128x128x64 .f32) (x1 : Vec F S1024x64 .f32) (acc : Vec F S128x1 .f32) : Vec F S128x1 .f32 :=
  k0_pay1 (k0_pay3 x0)
    (k0_pay4 x0 (chunk x1 0 (by decide)) (chunk x1 128 (by decide)) (chunk x1 256 (by decide)) (chunk x1 384 (by decide)))
    (chunk x1 512 (by decide)) (chunk x1 640 (by decide)) (chunk x1 768 (by decide)) (chunk x1 896 (by decide)) acc

/-- The zero fill the first tile's step starts from. -/
abbrev zeroFill : Vec F S128x1 .f32 := k0_pay2 (F := F)

/-- A first tile (the accumulator is zero-filled, then updated) leaves the step from zero in the accumulator. -/
theorem acc_first (c : Dev nD) (i : grid0.Coords) (a2 : Memref sig .tc .vmem S128x128x64 .f32) (h2 : a2.IsWhole) (a3 : Memref sig .tc .vmem S1024x64 .f32) (h3 : a3.IsWhole) (a4 : Memref sig .tc .vmem S128x1 .f32) (h4 : a4.IsWhole) (a5 : Memref sig .tc .vmem S128x1 .f32) (h5 : a5.IsWhole) (hc0 : cond0_0 i) (hc1 : ¬cond0_1 i)
    (x0 : Vec F S128x128x64 .f32) (x1 : Vec F S1024x64 .f32) :
    sout0_A_0 c i a2 h2 a3 h3 a4 h4 a5 h5 hc0 hc1 x0 x1 = step x0 x1 (zeroFill (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x1) hz2, View.readCov_unit_zero (S := S128x1) _ hz2]
  simp only [View.readAt_eq_ld, h2.read_unread, h3.read_unread, h5.read_unread, View.ld_unit_zero (S := S128x1) hz2, View.ld_unit_zero (S := S128x128x64) hz3]
  rfl

/-- A middle tile leaves the step from what the accumulator held. -/
theorem acc_middle (c : Dev nD) (i : grid0.Coords) (a2 : Memref sig .tc .vmem S128x128x64 .f32) (h2 : a2.IsWhole) (a3 : Memref sig .tc .vmem S1024x64 .f32) (h3 : a3.IsWhole) (a4 : Memref sig .tc .vmem S128x1 .f32) (h4 : a4.IsWhole) (a5 : Memref sig .tc .vmem S128x1 .f32) (h5 : a5.IsWhole) (hc0 : ¬cond0_0 i) (hc1 : ¬cond0_1 i)
    (x0 : Vec F S128x128x64 .f32) (x1 : Vec F S1024x64 .f32) (xs0 : Vec F S128x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S128x1) hz2, View.ld_unit_zero (S := S128x128x64) hz3]
  rfl

/-- A last tile leaves the same in the accumulator, -/
theorem acc_last (c : Dev nD) (i : grid0.Coords) (a2 : Memref sig .tc .vmem S128x128x64 .f32) (h2 : a2.IsWhole) (a3 : Memref sig .tc .vmem S1024x64 .f32) (h3 : a3.IsWhole) (a4 : Memref sig .tc .vmem S128x1 .f32) (h4 : a4.IsWhole) (a5 : Memref sig .tc .vmem S128x1 .f32) (h5 : a5.IsWhole) (hc0 : ¬cond0_0 i) (hc1 : cond0_1 i)
    (x0 : Vec F S128x128x64 .f32) (x1 : Vec F S1024x64 .f32) (xs0 : Vec F S128x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S128x1) hz2, View.ld_unit_zero (S := S128x128x64) hz3]
  rfl

/-- and a copy of it in the output block: the accumulator read back after its update. -/
theorem out_last (c : Dev nD) (i : grid0.Coords) (a2 : Memref sig .tc .vmem S128x128x64 .f32) (h2 : a2.IsWhole) (a3 : Memref sig .tc .vmem S1024x64 .f32) (h3 : a3.IsWhole) (a4 : Memref sig .tc .vmem S128x1 .f32) (h4 : a4.IsWhole) (a5 : Memref sig .tc .vmem S128x1 .f32) (h5 : a5.IsWhole) (hc0 : ¬cond0_0 i) (hc1 : cond0_1 i)
    (x0 : Vec F S128x128x64 .f32) (x1 : Vec F S1024x64 .f32) (xs0 : Vec F S128x1 .f32) :
    out0_C_2 c i a2 h2 a3 h3 a4 h4 a5 h5 hc0 hc1 x0 x1 xs0 = step x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2, View.readCov_unit_zero (S := S128x1) _ hz2]
  simp only [View.readAt_eq_ld, h2.read_unread, h3.read_unread, h5.read_unread, View.ld_unit_zero (S := S128x1) hz2, View.ld_unit_zero (S := S128x128x64) hz3]
  rfl

end Cert.KernelIdeal.Step

end
-- ==== Proof.Accumulate.lean ====
/-
  The accumulator across the grid.

  The grid is 2 splat tiles × 8 block-token tiles, walked splat tile by splat tile; point n is block-token tile
  n mod 8 of splat tile n div 8. The kernel keeps its running per-splat sums in a scratch buffer that survives from
  one point to the next: zero-filled and stepped at a point with n mod 8 = 0, stepped from what the point before left
  otherwise. `accAfter n` is that buffer after point n, written as a recursion on n; by induction on the point it is
  what the frame's bookkeeping (`outsAt0`) records for the scratch, and at the points with n mod 8 = 7, where the
  body also copies the accumulator out, it is what the output block holds. Holds at any float instance.
-/
import proofs.«420214_j2190433320968_4_alg».proof.Proof.KernelStep

set_option maxRecDepth 16384

noncomputable section

namespace Cert.KernelIdeal.Step

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The block-feature tile and the image features the body finds at point `t`. -/
abbrev qblk (c : Dev nD) (t : Fin cfg0.N) : Vec F S128x128x64 .f32 := iblk m c 0 t
abbrev kblk (c : Dev nD) (t : Fin cfg0.N) : Vec F S1024x64 .f32 := iblk m c 1 t

/-- The accumulator after point `n`. -/
def accAfter (c : Dev nD) : (n : ℕ) → n < cfg0.N → Vec F S128x1 .f32
  | 0, h => step (qblk m c ⟨0, h⟩) (kblk m c ⟨0, h⟩) (zeroFill (F := F))
  | n + 1, h =>
    if (n + 1) % 8 = 0 then step (qblk m c ⟨n + 1, h⟩) (kblk m c ⟨n + 1, h⟩) (zeroFill (F := F))
    else step (qblk m c ⟨n + 1, h⟩) (kblk m c ⟨n + 1, h⟩) (accAfter c n (Nat.lt_of_succ_lt h))

/-- At the first block-token tile of a splat tile the accumulator restarts from zero; -/
theorem accAfter_first (c : Dev nD) (t : Fin cfg0.N) (h0 : t.val % 8 = 0) :
    accAfter m c t.val t.isLt = step (qblk m c t) (kblk m c t) (zeroFill (F := F)) := by
  obtain ⟨n, hn⟩ := t
  cases n with
  | zero => rfl
  | succ n => exact if_pos h0

/-- at every other tile it steps from what the point before left. -/
theorem accAfter_next (c : Dev nD) (t : Fin cfg0.N) (h0 : ¬t.val % 8 = 0) :
    accAfter m c t.val t.isLt
      = step (qblk m c t) (kblk m c t) (accAfter m c (t.val - 1) (Nat.lt_of_le_of_lt (Nat.sub_le _ _) t.isLt)) := by
  obtain ⟨n, hn⟩ := t
  cases n with
  | zero => exact absurd (Nat.zero_mod _) h0
  | succ n => exact if_neg h0

/-- What the frame records for the scratch after point `n` is the accumulator after point `n`: by induction on the
    point, each point in the control case its position selects. -/
theorem scratch_eq (c : Dev nD) : ∀ (n : ℕ) (h : n < cfg0.N), (outsAt0 m c n h).2 = accAfter m c n h
  | 0, h => by
    have h1 : ¬(⟨0, h⟩ : Fin cfg0.N).val % 8 = 7 := by dsimp only; omega
    rw [outsAt0_A m c ⟨0, h⟩ (Nat.zero_mod 8) h1]
    dsimp only
    exact acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)
  | n + 1, h => by
    by_cases h0 : (n + 1) % 8 = 0
    · have h1 : ¬(n + 1) % 8 = 7 := by omega
      rw [outsAt0_A m c (⟨n + 1, h⟩ : Fin cfg0.N) h0 h1]
      dsimp only
      rw [accAfter, if_pos h0]
      exact acc_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) _ _ (iblk m c 0 (⟨n + 1, h⟩ : Fin cfg0.N)) (iblk m c 1 (⟨n + 1, h⟩ : Fin cfg0.N))
    · by_cases h1 : (n + 1) % 8 = 7
      · rw [outsAt0_C m c (⟨n + 1, h⟩ : Fin cfg0.N) h0 h1]
        dsimp only
        rw [accAfter, if_neg h0]
        refine (acc_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) _ _ (iblk m c 0 (⟨n + 1, h⟩ : Fin cfg0.N)) (iblk m c 1 (⟨n + 1, h⟩ : Fin cfg0.N)) _).trans ?_
        show step _ _ (outsAt0 m c n _).2 = step _ _ (accAfter m c n _)
        rw [scratch_eq c n]
      · rw [outsAt0_B m c (⟨n + 1, h⟩ : Fin cfg0.N) h0 h1]
        dsimp only
        rw [accAfter, if_neg h0]
        refine (acc_middle c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) _ _ (iblk m c 0 (⟨n + 1, h⟩ : Fin cfg0.N)) (iblk m c 1 (⟨n + 1, h⟩ : Fin cfg0.N)) _).trans ?_
        show step _ _ (outsAt0 m c n _).2 = step _ _ (accAfter m c n _)
        rw [scratch_eq c n]

/-- At a last block-token tile the output block holds the accumulator after that point. -/
theorem out_eq (c : Dev nD) (t : Fin cfg0.N) (h1 : t.val % 8 = 7) :
    (outsAt0 m c t.val t.isLt).1 = accAfter m c t.val t.isLt := by
  have h0 : ¬t.val % 8 = 0 := by omega
  rw [outsAt0_C m c t h0 h1]
  dsimp only
  rw [accAfter_next m c t h0]
  refine (out_last c (grid0.coords t) (ms0_0 t) (hs0_0 t) (ms0_1 t) (hs0_1 t) (ms0_2 t) (hs0_2 t) scM0_0 (Memref.isWhole_whole _) _ _ (iblk m c 0 t) (iblk m c 1 t) _).trans ?_
  rw [scratch_eq m c (t.val - 1)]

end Cert.KernelIdeal.Step

end
-- ==== Proof.StepValue.lean ====
/-
  One grid step read at a splat.

  At the extended reals the step's arithmetic is exact, so its result at splat row `r` of the tile can be written
  down: the accumulator there plus the sum, over the tile's 128 block tokens `q`, of the best score of token (r, q)
  — its inner product with each of the 1024 image tokens, the maximum taken lane by lane over eight nested chunks.
  The layers, from the inside out:

    a chunk load at row offset o reads image token o + k at lane k;
    the tile flattened to 16384 rows reads row 128·r + q as token (r, q);
    a matrix product into zero is the 64-term inner product of a flattened row with a chunk's row;
    `max` folds the eight chunks' products pointwise, from the starting word, in chunk order;
    the lane reduction folds `max` over the 128 lanes from the same starting word;
    the 16384 row maxima unflatten to 128 × 128; the row reduction sums the 128 block tokens of a splat;
    the sums become a 128 × 1 column, added to the accumulator.

  The reductions' side-condition proofs are variables of the statements, so that the lemmas apply to the printed
  terms whatever proof terms those carry; each lemma is used by transitivity, not by rewriting.
-/
import proofs.«420214_j2190433320968_4_alg».proof.Proof.KernelStep
import proofs.«420214_j2190433320968_4_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Step

open Cert.KernelIdeal Cert.KernelIdeal.Gen
open Idealize.ShloMosaic Idealize.ShloMosaic.ValueIdx Cert.SplatMaxSum

/-- Row 128·r + q of the flattened tile: block token `q` of the tile's splat `r`. -/
def flat (r q : Fin 128) : Fin 16384 := ⟨128 * r.val + q.val, by have := r.isLt; have := q.isLt; omega⟩

theorem flat_val (r q : Fin 128) : (flat r q).val = 128 * r.val + q.val := rfl

/-- A chunk of the image features as a float vector (the same rows, typed for the arithmetic that consumes it). -/
abbrev fchunk (x1 : FVec Ideal S1024x64 .f32) (o : Nat) (ho : o + 128 ≤ 1024) : FVec Ideal S128x64 .f32 :=
  chunk (F := Ideal) x1 o ho

/-- A chunk at row offset `o` reads image token `o + k` at its row `k`. -/
theorem chunk_apply (x1 : FVec Ideal S1024x64 .f32) (o : Nat) (ho : o + 128 ≤ 1024) (k : Fin 128) (c : Fin 64) :
    fchunk x1 o ho (ix2 k c) = x1 (ix2 (⟨o + k.val, by have := k.isLt; omega⟩ : Fin 1024) c) := by
  show x1 ((Rect.unit (s := S1024x64) ![o, 0] ![128, 64] (chunk_inb o ho)).emb (ix2 k c)) = _
  refine congrArg x1 (funext fun a => Fin.ext ?_)
  match a with
  | ⟨0, _⟩ => show o + 1 * k.val = o + k.val; omega
  | ⟨1, _⟩ => show 0 + 1 * c.val = c.val; omega

/-- The flattened tile at row 128·r + q is the tile at (r, q). -/
theorem flat_apply (x0 : FVec Ideal S128x128x64 .f32) (r q : Fin 128) (c : Fin 64) :
    k0_pay3 x0 (ix2 (flat r q) c) = x0 (ix3 r q c) := by
  unfold k0_pay3
  refine shapeCast_apply x0 _ (ix2 (flat r q) c) (ix3 r q c) ?_
  rw [Shape.rowMajor_val_three, Shape.rowMajor_val_two]
  show (r.val * 128 + q.val) * 64 + c.val = (128 * r.val + q.val) * 64 + c.val
  omega

/-! ### The matrix product: which operand entries meet -/

theorem lhs_dot_0 (i : S16384x128.Idx) (p : dot_S16384x64_S128x64_S16384x128_1_1_0_0_n_n.contr.Idx) :
    (dot_S16384x64_S128x64_S16384x128_1_1_0_0_n_n.lhsIdx i p 0).val = (i 0).val := by
  unfold DotDims.lhsIdx
  rw [dif_neg (show ¬(0 : Fin S16384x64.rank) ∈ dot_S16384x64_S128x64_S16384x128_1_1_0_0_n_n.lhsBatch by decide), dif_pos (show (0 : Fin S16384x64.rank) ∈ dot_S16384x64_S128x64_S16384x128_1_1_0_0_n_n.lhsNonContracting by decide)]
  rfl
theorem lhs_dot_1 (i : S16384x128.Idx) (p : dot_S16384x64_S128x64_S16384x128_1_1_0_0_n_n.contr.Idx) :
    (dot_S16384x64_S128x64_S16384x128_1_1_0_0_n_n.lhsIdx i p 1).val = (p ⟨0, by decide⟩).val :=
  dot_S16384x64_S128x64_S16384x128_1_1_0_0_n_n.lhsIdx_val_of_single rfl i p
theorem rhs_dot_0 (i : S16384x128.Idx) (p : dot_S16384x64_S128x64_S16384x128_1_1_0_0_n_n.contr.Idx) :
    (dot_S16384x64_S128x64_S16384x128_1_1_0_0_n_n.rhsIdx i p 0).val = (i 1).val := by
  unfold DotDims.rhsIdx
  rw [dif_neg (show ¬(0 : Fin S128x64.rank) ∈ dot_S16384x64_S128x64_S16384x128_1_1_0_0_n_n.rhsBatch by decide), dif_pos (show (0 : Fin S128x64.rank) ∈ dot_S16384x64_S128x64_S16384x128_1_1_0_0_n_n.rhsNonContracting by decide)]
  rfl
theorem rhs_dot_1 (i : S16384x128.Idx) (p : dot_S16384x64_S128x64_S16384x128_1_1_0_0_n_n.contr.Idx) :
    (dot_S16384x64_S128x64_S16384x128_1_1_0_0_n_n.rhsIdx i p 1).val = (p ⟨0, by decide⟩).val :=
  dot_S16384x64_S128x64_S16384x128_1_1_0_0_n_n.rhsIdx_val_of_single rfl i p

/-- A matrix product into zero at (n, k): the inner product over the 64 features of the left operand's row n with
    the right operand's row k. -/
theorem dot_apply (v : FVec Ideal S16384x64 .f32) (w : FVec Ideal S128x64 .f32) (n : Fin 16384) (k : Fin 128) :
    matmul dot_S16384x64_S128x64_S16384x128_1_1_0_0_n_n (some .fp32) v w (constant (F := Ideal) S16384x128 .f32 0x00000000#32) (ix2 n k) = ∑ c : Fin 64, v (ix2 n c) * w (ix2 k c) := by
  simp only [matmul]
  rw [Ideal.matmul_constant_zero_apply, ← Equiv.sum_comp (ValueIdx.contrEquiv1 dot_S16384x64_S128x64_S16384x128_1_1_0_0_n_n 64 rfl rfl).symm]
  refine Finset.sum_congr rfl fun c _ => ?_
  have hk := ValueIdx.contrEquiv1_symm_val dot_S16384x64_S128x64_S16384x128_1_1_0_0_n_n 64 rfl rfl c
  have el : dot_S16384x64_S128x64_S16384x128_1_1_0_0_n_n.lhsIdx (ix2 n k) ((ValueIdx.contrEquiv1 dot_S16384x64_S128x64_S16384x128_1_1_0_0_n_n 64 rfl rfl).symm c) = ix2 n c := funext fun a => Fin.ext (by
    match a with
    | ⟨0, _⟩ => exact lhs_dot_0 _ _
    | ⟨1, _⟩ => exact (lhs_dot_1 _ _).trans hk)
  have er : dot_S16384x64_S128x64_S16384x128_1_1_0_0_n_n.rhsIdx (ix2 n k) ((ValueIdx.contrEquiv1 dot_S16384x64_S128x64_S16384x128_1_1_0_0_n_n 64 rfl rfl).symm c) = ix2 k c := funext fun a => Fin.ext (by
    match a with
    | ⟨0, _⟩ => exact rhs_dot_0 _ _
    | ⟨1, _⟩ => exact (rhs_dot_1 _ _).trans hk)
  rw [el, er]

/-- One chunk's product at (128·r + q, k): the score of block token (r, q) against image token 128·ch + k. -/
theorem leaf_apply (x0 : FVec Ideal S128x128x64 .f32) (x1 : FVec Ideal S1024x64 .f32) (o : Nat) (ho : o + 128 ≤ 1024)
    (ch : Fin 8) (hch : o = 128 * ch.val) (r q k : Fin 128) :
    matmul dot_S16384x64_S128x64_S16384x128_1_1_0_0_n_n (some .fp32) (k0_pay3 x0) (fchunk x1 o ho) (constant (F := Ideal) S16384x128 .f32 0x00000000#32) (ix2 (flat r q) k)
      = ∑ c : Fin 64, x0 (ix3 r q c) * x1 (ix2 (tile ch k) c) := by
  refine (dot_apply (k0_pay3 x0) (fchunk x1 o ho) (flat r q) k).trans (Finset.sum_congr rfl fun (c : Fin 64) _ => ?_)
  refine congrArg₂ (· * ·) (flat_apply x0 r q c) ((chunk_apply x1 o ho k c).trans (congrArg x1 ?_))
  exact congrArg (fun t : Fin 1024 => ix2 t c) (Fin.ext (by simp only [tile_val]; omega))

/-! ### The reductions and the reshapes -/

/-- The lane reduction at row n: the fold of `max` from the starting word over the row's 128 lanes. -/
theorem laneMax_apply (v : FVec Ideal S16384x128 .f32) (h : S16384x128.Reduces [1] S16384) (hφ : FKind.Formats .f32)
    (hacc : (0xFF800000#32 : BitVec 32) = FKind.maximumf.neutral .f32 hφ) (n : Fin 16384) :
    multiReduction (F := Ideal) .maximumf [1] S16384 v 0xFF800000#32 h hφ hacc (ix1 n)
      = (Finset.univ : Finset (Fin 128)).fold max maxStart (fun k => v (ix2 n k)) :=
  (Ideal.multiReduction_maximumf_single v _ h hφ hacc (ix1 n)).trans
    (Finset.fold_congr fun (k : Fin 128) _ =>
      congrArg v (funext fun a => Fin.ext (by match a with | ⟨0, _⟩ => rfl | ⟨1, _⟩ => rfl)))

/-- The 16384 row maxima as a 128 × 128 array: entry (r, q) is row 128·r + q. -/
theorem unflat_apply (v : FVec Ideal S16384 .f32) (h : S16384.ShapeCasts S128x128) (r q : Fin 128) :
    shapeCast S128x128 v h (ix2 r q) = v (ix1 (flat r q)) :=
  shapeCast_apply v h (ix2 r q) (ix1 (flat r q)) (by
    rw [Shape.rowMajor_val_one, Shape.rowMajor_val_two]
    show 128 * r.val + q.val = r.val * 128 + q.val
    omega)

/-- The row reduction at splat r: the sum over its 128 block tokens. -/
theorem rowSum_apply (v : FVec Ideal S128x128 .f32) (h : S128x128.Reduces [1] S128) (hφ : FKind.Formats .f32)
    (hacc : (0x00000000#32 : BitVec 32) = FKind.add.neutral .f32 hφ) (r : Fin 128) :
    multiReduction (F := Ideal) .add [1] S128 v 0x00000000#32 h hφ hacc (ix1 r) = ∑ q : Fin 128, v (ix2 r q) :=
  (Ideal.multiReduction_add_single v _ h hφ hacc (ix1 r)).trans
    (Finset.sum_congr rfl fun (q : Fin 128) _ =>
      congrArg v (funext fun a => Fin.ext (by match a with | ⟨0, _⟩ => rfl | ⟨1, _⟩ => rfl)))

/-- The 128 sums as a 128 × 1 column: entry (r, 0) is sum r. -/
theorem col_apply (v : FVec Ideal S128 .f32) (h : S128.ShapeCasts S128x1) (r : Fin 128) :
    shapeCast S128x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-! ### The eight chunks folded at one lane, and the step -/

/-- Block token (r, q)'s scores against all image tokens, from the tile and the image features. -/
abbrev scoresOf (x0 : FVec Ideal S128x128x64 .f32) (x1 : FVec Ideal S1024x64 .f32) (r q : Fin 128) : Fin 1024 → EReal :=
  fun j => ∑ c : Fin 64, x0 (ix3 r q c) * x1 (ix2 j c)

/-- The eight chunks' products folded by `max` in chunk order from the starting word, at row 128·r + q and lane k:
    the nest of token (r, q)'s scores at that lane. -/
theorem nest_apply (x0 : FVec Ideal S128x128x64 .f32) (x1 : FVec Ideal S1024x64 .f32) (r q k : Fin 128) :
    maximumf (maximumf (maximumf (maximumf
        (k0_pay4 x0 (fchunk x1 0 (by decide)) (fchunk x1 128 (by decide)) (fchunk x1 256 (by decide)) (fchunk x1 384 (by decide)))
        (matmul dot_S16384x64_S128x64_S16384x128_1_1_0_0_n_n (some .fp32) (k0_pay3 x0) (fchunk x1 512 (by decide)) (constant (F := Ideal) S16384x128 .f32 0x00000000#32)))
        (matmul dot_S16384x64_S128x64_S16384x128_1_1_0_0_n_n (some .fp32) (k0_pay3 x0) (fchunk x1 640 (by decide)) (constant (F := Ideal) S16384x128 .f32 0x00000000#32)))
        (matmul dot_S16384x64_S128x64_S16384x128_1_1_0_0_n_n (some .fp32) (k0_pay3 x0) (fchunk x1 768 (by decide)) (constant (F := Ideal) S16384x128 .f32 0x00000000#32)))
        (matmul dot_S16384x64_S128x64_S16384x128_1_1_0_0_n_n (some .fp32) (k0_pay3 x0) (fchunk x1 896 (by decide)) (constant (F := Ideal) S16384x128 .f32 0x00000000#32)) (ix2 (flat r q) k)
      = nest8 maxStart (scoresOf x0 x1 r q) k :=
  (congrArg₂ max (congrArg₂ max (congrArg₂ max (congrArg₂ max (congrArg₂ max (congrArg₂ max (congrArg₂ max (congrArg (max maxStart) (leaf_apply x0 x1 0 (by decide) 0 rfl r q k)) (leaf_apply x0 x1 128 (by decide) 1 rfl r q k)) (leaf_apply x0 x1 256 (by decide) 2 rfl r q k)) (leaf_apply x0 x1 384 (by decide) 3 rfl r q k)) (leaf_apply x0 x1 512 (by decide) 4 rfl r q k)) (leaf_apply x0 x1 640 (by decide) 5 rfl r q k)) (leaf_apply x0 x1 768 (by decide) 6 rfl r q k)) (leaf_apply x0 x1 896 (by decide) 7 rfl r q k))

/-- THE STEP AT A SPLAT: the accumulator there plus the sum over the tile's block tokens of their best scores. -/
theorem step_apply (x0 : FVec Ideal S128x128x64 .f32) (x1 : FVec Ideal S1024x64 .f32) (acc : FVec Ideal S128x1 .f32) (r : Fin 128) :
    step (F := Ideal) x0 x1 acc (ix2 r (0 : Fin 1))
      = acc (ix2 r (0 : Fin 1)) + ∑ q : Fin 128,
          (Finset.univ : Finset (Fin 128)).fold max maxStart (nest8 maxStart (scoresOf x0 x1 r q)) := by
  unfold step k0_pay1
  dsimp only
  refine (congrFun (shapeCast_self _ _) (ix2 r (0 : Fin 1))).trans ?_
  refine congrArg (acc (ix2 r (0 : Fin 1)) + ·) ?_
  refine (col_apply _ _ r).trans ?_
  refine (rowSum_apply _ _ _ _ r).trans (Finset.sum_congr rfl fun (q : Fin 128) _ => ?_)
  refine (unflat_apply _ _ r q).trans ?_
  refine (laneMax_apply _ _ _ _ (flat r q)).trans (Finset.fold_congr fun (k : Fin 128) _ => ?_)
  exact nest_apply x0 x1 r q k

end Cert.KernelIdeal.Step

end
-- ==== Proof.KernelTotal.lean ====
/-
  The kernel's output array, at the extended reals.

  Point t works on splat tile t div 8 and block-token tile t mod 8 (the printed index maps, decided once over the 16
  points): its block-feature tile is splats 128·(t div 8) … + 127 and block tokens 128·(t mod 8) … + 127 of Q, its
  image features are all of K. So one step adds to row r of the accumulator exactly tile t mod 8's share of splat
  128·(t div 8) + r's total, and after point t the accumulator holds, at row r, the starting word plus the first
  t mod 8 + 1 shares (induction on the point; at a tile-0 point the accumulator restarts, elsewhere it continues the
  point before, which is in the same splat tile). At the points with t mod 8 = 7 that is the splat's total, and those
  are the points whose output block is written back: block t div 8 of the [256, 1] result, rows 128·(t div 8) … + 127.
  The two written blocks cover the array, so it ends holding each splat's total.
-/
import proofs.«420214_j2190433320968_4_alg».proof.Proof.Accumulate
import proofs.«420214_j2190433320968_4_alg».proof.Proof.StepValue
import Idealize.ShloMosaic.Lib.Pipeline.Value

set_option maxRecDepth 16384

noncomputable section

namespace Cert.KernelIdeal.Step

open Cert.KernelIdeal Cert.KernelIdeal.Gen Cert.SplatMaxSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block features and the image features as the kernel is given them. -/
abbrev Qarr (c : Dev nD) : SQ.Idx → EReal := m ((c : Thread nD τ).loc main_arg0)
abbrev Karr (c : Dev nD) : SK.Idx → EReal := m ((c : Thread nD τ).loc main_arg1)

/-- Point t's splat tile and block-token tile; splat 128·lt + r. -/
def splatTile (t : Fin cfg0.N) : Fin 2 := ⟨t.val / 8, by have := t.isLt; have : cfg0.N = 16 := N_0; omega⟩
def tokenTile (t : Fin cfg0.N) : Fin 8 := ⟨t.val % 8, by omega⟩
def splat (lt : Fin 2) (r : Fin 128) : Fin 256 := ⟨128 * lt.val + r.val, by have := lt.isLt; have := r.isLt; omega⟩

/-- The printed index maps over the grid: the block-feature window at (t div 8, t mod 8, 0), the image-feature window
    at the origin, the result window at (t div 8, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = t.val / 8 ∧ win0_2.index t (1 : Fin 2) = 0 :=
  (by decide +kernel : ∀ t : Fin grid0.N, _)

/-- The tile at (r, q, f) is Q at splat 128·(t div 8) + r, block token 128·(t mod 8) + q, feature f. -/
theorem qblk_apply (c : Dev nD) (t : Fin cfg0.N) (r q : Fin 128) (f : Fin 64) :
    qblk m c t (ix3 r q f) = Qarr m c (ix3 (splat (splatTile t) r) (tile (tokenTile t) q) f) := by
  obtain ⟨e0, e1, e2, -⟩ := idx_facts t
  show ((cfg0.win 0).blk t).view.read (Elt Ideal) (V m c (Pipeline.arrRef spec0 0)) (ix3 r q f) = _
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 3) * 128 + 1 * r.val = 128 * (t.val / 8) + r.val; rw [e0]; omega
  | ⟨1, _⟩ => show win0_0.index t (1 : Fin 3) * 128 + 1 * q.val = 128 * (t.val % 8) + q.val; rw [e1]; omega
  | ⟨2, _⟩ => show win0_0.index t (2 : Fin 3) * 64 + 1 * f.val = f.val; rw [e2]; omega

/-- The image features at a point are all of K. -/
theorem kblk_apply (c : Dev nD) (t : Fin cfg0.N) (j : Fin 1024) (f : Fin 64) :
    kblk m c t (ix2 j f) = Karr m c (ix2 j f) := by
  obtain ⟨-, -, -, e3, e4, -⟩ := idx_facts t
  show ((cfg0.win 1).blk t).view.read (Elt Ideal) (V m c (Pipeline.arrRef spec0 1)) (ix2 j f) = _
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 2) * 1024 + 1 * j.val = j.val; rw [e3]; omega
  | ⟨1, _⟩ => show win0_1.index t (1 : Fin 2) * 64 + 1 * f.val = f.val; rw [e4]; omega

/-- So token (r, q) of the tile scores as block token 128·(t mod 8) + q of splat 128·(t div 8) + r. -/
theorem scoresOf_blk (c : Dev nD) (t : Fin cfg0.N) (r q : Fin 128) :
    scoresOf (qblk m c t) (kblk m c t) r q
      = score (Qarr m c) (Karr m c) (splat (splatTile t) r) (tile (tokenTile t) q) := by
  funext j
  unfold score
  exact Finset.sum_congr rfl fun (f : Fin 64) _ => congrArg₂ (· * ·) (qblk_apply m c t r q f) (kblk_apply m c t j f)

/-- One step at point t adds tile t mod 8's share of the splat's total to the accumulator's row. -/
theorem step_point (c : Dev nD) (t : Fin cfg0.N) (acc : FVec Ideal S128x1 .f32) (r : Fin 128) :
    step (F := Ideal) (qblk m c t) (kblk m c t) acc (ix2 r (0 : Fin 1))
      = acc (ix2 r (0 : Fin 1)) + tileSum (Qarr m c) (Karr m c) (splat (splatTile t) r) (tokenTile t) := by
  refine (step_apply (qblk m c t) (kblk m c t) acc r).trans (congrArg (acc (ix2 r (0 : Fin 1)) + ·) ?_)
  unfold tileSum
  exact Finset.sum_congr rfl fun (q : Fin 128) _ =>
    congrArg (fun s : Fin 1024 → EReal => (Finset.univ : Finset (Fin 128)).fold max maxStart (nest8 maxStart s))
      (scoresOf_blk m c t r q)

/-- The zero fill is the starting word of the sum, at every row. -/
theorem zeroFill_apply (r : Fin 128) : zeroFill (F := Ideal) (ix2 r (0 : Fin 1)) = sumStart := by
  unfold zeroFill k0_pay2
  exact congrFun (shapeCast_self _ _) _

/-- Tile a's share of a splat's total, for a natural a (nothing outside 0 … 7). -/
def share (c : Dev nD) (l : Fin 256) (a : ℕ) : EReal :=
  if h : a < 8 then tileSum (Qarr m c) (Karr m c) l ⟨a, h⟩ else 0

theorem share_tokenTile (c : Dev nD) (l : Fin 256) (t : Fin cfg0.N) :
    share m c l (t.val % 8) = tileSum (Qarr m c) (Karr m c) l (tokenTile t) :=
  dif_pos (Nat.mod_lt _ (by decide))

/-- THE ACCUMULATOR AFTER POINT n, at row r: the starting word plus the first n mod 8 + 1 shares of splat
    128·(n div 8) + r. -/
theorem acc_rows (c : Dev nD) (r : Fin 128) : ∀ (n : ℕ) (h : n < cfg0.N),
    accAfter m c n h (ix2 r (0 : Fin 1))
      = sumStart + ∑ a ∈ Finset.range (n % 8 + 1), share m c (splat (splatTile ⟨n, h⟩) r) a := by
  intro n
  induction n with
  | zero =>
    intro h
    refine (congrFun (accAfter_first m c ⟨0, h⟩ (Nat.zero_mod 8)) _).trans ((step_point m c ⟨0, h⟩ _ r).trans ?_)
    rw [zeroFill_apply, ← share_tokenTile m c _ ⟨0, h⟩]
    show _ = sumStart + ∑ a ∈ Finset.range (0 % 8 + 1), _
    rw [show 0 % 8 + 1 = 1 from rfl, Finset.sum_range_one]
    rfl
  | succ n ih =>
    intro h
    have hN : cfg0.N = 16 := N_0
    by_cases h0 : (n + 1) % 8 = 0
    · refine (congrFun (accAfter_first m c ⟨n + 1, h⟩ h0) _).trans ((step_point m c ⟨n + 1, h⟩ _ r).trans ?_)
      rw [zeroFill_apply, ← share_tokenTile m c _ ⟨n + 1, h⟩]
      show sumStart + share m c _ ((n + 1) % 8) = _
      rw [h0, show (0 : ℕ) + 1 = 1 from rfl, Finset.sum_range_one]
    · refine (congrFun (accAfter_next m c ⟨n + 1, h⟩ h0) _).trans ((step_point m c ⟨n + 1, h⟩ _ r).trans ?_)
      rw [← share_tokenTile m c _ ⟨n + 1, h⟩]
      show accAfter m c n _ (ix2 r (0 : Fin 1)) + share m c _ ((n + 1) % 8) = _
      rw [ih (Nat.lt_of_succ_lt h)]
      have hl : splat (splatTile ⟨n, Nat.lt_of_succ_lt h⟩) r = splat (splatTile ⟨n + 1, h⟩) r :=
        Fin.ext (by show 128 * (n / 8) + r.val = 128 * ((n + 1) / 8) + r.val; omega)
      have hm : (n + 1) % 8 = n % 8 + 1 := by omega
      rw [hl, hm, Finset.sum_range_succ _ (n % 8 + 1), add_assoc]

/-- At a last block-token tile the accumulator's row r holds splat 128·(t div 8) + r's total. -/
theorem acc_total (c : Dev nD) (t : Fin cfg0.N) (h7 : t.val % 8 = 7) (r : Fin 128) :
    accAfter m c t.val t.isLt (ix2 r (0 : Fin 1)) = total (Qarr m c) (Karr m c) (ix1 (splat (splatTile t) r)) := by
  rw [acc_rows m c r t.val t.isLt, h7]
  show sumStart + ∑ a ∈ Finset.range 8, share m c (splat (splatTile t) r) a = _
  rw [Finset.sum_range]
  have hs : ∀ a : Fin 8, share m c (splat (splatTile t) r) a.val = tileSum (Qarr m c) (Karr m c) (splat (splatTile t) r) a :=
    fun a => dif_pos a.isLt
  simp only [hs]
  exact (chain8 sumStart _).symm.trans (total_tiled (Qarr m c) (Karr m c) (ix1 (splat (splatTile t) r)))

/-! ## The result array -/

/-- What the [256, 1] result array ends holding: each splat's total, down its one column. -/
abbrev column (c : Dev nD) : S256x1.Idx → EReal :=
  fun i => total (Qarr m c) (Karr m c) (ix1 (⟨(i 0).val, idx2_lt0 i⟩ : Fin 256))

/-- WHAT A WRITING POINT WRITES BACK is its block of the column of totals. -/
theorem flushed_eq (c : Dev nD) (t : Fin cfg0.N) (hf : (cfg0.win 2).flush t = true) :
    (dats m 0 c).flushed 2 t = ((cfg0.win 2).blk t).view.read (Elt Ideal) (column m c) := by
  have h7 : t.val % 8 = 7 := (flush0_2 t).mp hf
  obtain ⟨-, -, -, -, -, e5, e6⟩ := idx_facts t
  show (cfg0.win 2).cut (grid0.coords t) ((dats m 0 c).after 2 t) = _
  rw [after0_2, out_eq m c t h7]
  funext y
  obtain ⟨r, z, rfl⟩ : ∃ (r : Fin 128) (z : Fin 1), y = ix2 r z := ⟨y 0, y 1, eq_ix2 y⟩
  obtain rfl : z = 0 := Subsingleton.elim _ _
  show accAfter m c t.val t.isLt (ix2 r (0 : Fin 1)) = column m c (((cfg0.win 2).blk t).view.emb (ix2 r (0 : Fin 1)))
  rw [acc_total m c t h7 r]
  refine congrArg (total (Qarr m c) (Karr m c)) (congrArg ix1 (Fin.ext ?_))
  show 128 * (t.val / 8) + r.val = win0_2.index t (0 : Fin 2) * 128 + 1 * r.val
  rw [e5]; omega

/-- A row of the result is in point t's block iff it is one of the block's 128 rows. -/
theorem mem_blk (t : Fin cfg0.N) (i : S256x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v0).slice (win0_2.rect t)).set ↔ _
  rw [View.set_slice_whole, Rect.mem_set_unit]
  exact Iff.rfl

/-- Every row is in a written block: row i's is the one written at the last tile of splat tile i div 128. -/
theorem cover (i : S256x1.Idx) : ∃ t : Fin cfg0.N, (cfg0.win 2).flush t = true ∧ i ∈ ((cfg0.win 2).blk t).view.set := by
  have hi0 : (i 0).val < 256 := idx2_lt0 i
  have hi1 : (i 1).val < 1 := idx2_lt1 i
  have hN : cfg0.N = 16 := N_0
  obtain ⟨t, ht⟩ : ∃ t : Fin cfg0.N, t.val = 8 * ((i 0).val / 128) + 7 := ⟨⟨8 * ((i 0).val / 128) + 7, by omega⟩, rfl⟩
  obtain ⟨-, -, -, -, -, e5, e6⟩ := idx_facts t
  refine ⟨t, (flush0_2 t).mpr (by omega), ?_⟩
  rw [mem_blk]
  intro a
  match a with
  | ⟨0, _⟩ =>
    show win0_2.index t (0 : Fin 2) * 128 ≤ (i 0).val ∧ (i 0).val < win0_2.index t (0 : Fin 2) * 128 + 128
    rw [e5]; omega
  | ⟨1, _⟩ =>
    show win0_2.index t (1 : Fin 2) * 1 ≤ (i 1).val ∧ (i 1).val < win0_2.index t (1 : Fin 2) * 1 + 1
    rw [e6]; omega

/-- THE RESULT ARRAY after the run: the column of totals. -/
theorem final (c : Dev nD) : (dats m 0 c).arrAt 2 cfg0.N = column m c :=
  (dats m 0 c).arrAt_eq_of_cover 2 (column m c) (flushed_eq m c) cover

end Cert.KernelIdeal.Step

end
-- ==== Proof.KernelRun.lean ====
/-
  The kernel's run, read: its result is `total` of its two arguments.

  After the region the [256, 1] result array holds the column of totals; the one host line after it reshapes the
  column to the [256] result, entry l of which is entry (l, 0) of the column (the same row-major position). Nothing
  else touches the result, and the two arguments are inputs of the region, which ends with them as it found them.
-/
import proofs.«420214_j2190433320968_4_alg».proof.Proof.KernelTotal
import Idealize.ShloMosaic.Lib.StableHlo.Run

set_option maxRecDepth 16384

noncomputable section

namespace Cert.KernelIdeal.Step

open Cert.KernelIdeal Cert.KernelIdeal.Gen Cert.SplatMaxSum
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The column of totals read flat is the totals. -/
theorem column_flat (c : Dev nD) (W : S256x1.Idx → EReal) (hW : W = column m c) (h : S256x1.ShapeCasts S256) :
    shapeCast S256 W h = total (Qarr m c) (Karr m c) := by
  subst hW
  funext o
  obtain ⟨l, rfl⟩ : ∃ l : Fin 256, o = ix1 l := ⟨o 0, eq_ix1 o⟩
  refine (shapeCast_apply (column m c) h (ix1 l) (ix2 l (0 : Fin 1)) ?_).trans rfl
  rw [Shape.rowMajor_val_two, Shape.rowMajor_val_one]
  show l.val * 1 + 0 = l.val
  omega

/-- What the host line after the region leaves in the result: the totals. -/
theorem tail_eq (c : Dev nD) :
    Pipeline.afterTail₀ cfgs (dats m) 0 (V0 m) [hostOps1] c main_v1 = total (Qarr m c) (Karr m c) := by
  unfold Pipeline.afterTail₀
  show StableHlo.after hostOps1 _ (Proc.devRef .tc main_v1) = _
  after_results
  show shapeCast S256 (Pipeline.withArrays spec0 c (V0 m c) (fun w => (dats m 0 c).arrAt w cfg0.N) (Proc.devRef .tc main_v0))
    shapeCasts_S256x1_S256 = _
  exact column_flat m c _ ((Pipeline.withArrays_arr spec0 launch0.win.arr_inj c _ _ 2).trans (final m c)) _

/-- THE RUN: every weakly fair execution of the kernel's program terminates with the result at `total` of the
    arguments and the arguments unchanged. -/
theorem run : θ_run defs (onTc (τ := τ) (main (F := Ideal))) ⟨m, fun _ => 0, ρ⟩ fun r => ∀ c : Dev nD,
      r.2.mem ((c.tc : Thread nD τ).loc main_v1) = total (Qarr m c) (Karr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (fun w => by fin_cases w <;> decide))).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Step

end
-- ==== Proof.lean ====
/-
  For each of 256 splats l, kernel and reference compute the same number: the sum, over the splat's 1024 block
  tokens i, of the best score of token (l, i) against the 1024 image tokens j, a score being the inner product of the
  64 features, Q[l, i, ·] · K[j, ·]. That function is `Cert.SplatMaxSum.total` (Proof/Spec.lean).

  The reference forms all 256 × 1024 × 1024 scores with one contraction, takes each row's maximum from −∞ and sums
  each splat's 1024 maxima from 0: read stage by stage it is `total` (Proof/RefTotal.lean).

  The kernel walks a 2 × 8 grid, 128 splats × 128 block tokens at a time, with all of K resident. At a point it
  forms the tile's scores against K in eight chunks of 128 image tokens, folds the chunks by `max` lane by lane,
  reduces the 128 lanes by `max`, sums the tile's 128 block tokens per splat and adds the 128 sums to a running
  accumulator that is zeroed at the first of a splat tile's eight points and copied to the output block at the last
  (Proof/KernelStep.lean: what each of the three control cases leaves; Proof/StepValue.lean: one step read at a splat;
  Proof/Accumulate.lean: the accumulator across the grid, by induction on the point; Proof/KernelTotal.lean: the
  [256, 1] output array, block by block; Proof/KernelRun.lean: the reshape to [256] and the run).

  Over the extended reals the two agree by regrouping alone: a maximum over 1024 tokens is the maximum over 128
  lanes of the maxima of eight nested chunks (`max` is idempotent, commutative and associative), a sum over 1024
  tokens is the sum of eight tile sums, and adding those one after the other onto 0 is adding their sum (`+` is
  commutative and associative, at the infinities too). No entry needs to be finite, so the precondition is not used.

  The kernel's two frame claims are its generated frame certificates; the reference has no kernel, and its frame is
  its generated run with the result dropped; the idealization rewrote nothing, so `preserves` is `True`.
-/
import proofs.«420214_j2190433320968_4_alg».proof.Defs
import proofs.«420214_j2190433320968_4_alg».proof.Proof.Gen.Kernel
import proofs.«420214_j2190433320968_4_alg».proof.Proof.Gen.Kernel.Skeleton
import proofs.«420214_j2190433320968_4_alg».proof.Proof.Gen.Kernel.Launch
import proofs.«420214_j2190433320968_4_alg».proof.Proof.Gen.Kernel.Points
import proofs.«420214_j2190433320968_4_alg».proof.Proof.Gen.Kernel.Frame
import proofs.«420214_j2190433320968_4_alg».proof.Proof.Gen.KernelIdeal
import proofs.«420214_j2190433320968_4_alg».proof.Proof.Gen.KernelIdeal.Skeleton
import proofs.«420214_j2190433320968_4_alg».proof.Proof.Gen.KernelIdeal.Launch
import proofs.«420214_j2190433320968_4_alg».proof.Proof.Gen.KernelIdeal.Points
import proofs.«420214_j2190433320968_4_alg».proof.Proof.Gen.KernelIdeal.Frame
import proofs.«420214_j2190433320968_4_alg».proof.Proof.Gen.ReferenceIdeal
import proofs.«420214_j2190433320968_4_alg».proof.Proof.Gen.Pre_finite_inputs
import proofs.«420214_j2190433320968_4_alg».proof.Proof.Gen.ReferenceIdeal.Run
import proofs.«420214_j2190433320968_4_alg».proof.Proof.Gen.ReferenceIdeal.Read
import proofs.«420214_j2190433320968_4_alg».proof.Proof.RefTotal
import proofs.«420214_j2190433320968_4_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on Q and K both programs end with each splat's total in the result. -/
theorem algebraic : Cert.algebraic_KernelIdeal_ReferenceIdeal := by
  intro m ρ m' ρ' _ hagree
  refine ⟨fun c => Cert.SplatMaxSum.total (Cert.KernelIdeal.Step.Qarr m c) (Cert.KernelIdeal.Step.Karr m c),
    Cert.KernelIdeal.Step.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.SplatMaxSum.Reference.result_eq_total _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
